-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S10x10 : Shape := ⟨2, ![10, 10]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_

variable [Facts]

def fn_part1 {F : FTy → Type} [FloatOps F] (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  main_v18

def fn {F : FTy → Type} [FloatOps F] (main_arg0 : FVec F S1048576x64 .f32) (main_arg1 : FVec F S1048576x64 .f32) (main_arg2 : FVec F S1048576x64 .f32) (main_arg3 : IVec S1048576 32) (main_arg4 : IVec S1048576 32) (main_arg5 : FVec F S10x10 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S1048576x64 .f32 := Host.absf main_arg2
  let main_cst_2 : FVec F S_ .f32 := constant S_ .f32 0x7F800000#32
  let main_v10 : FVec F S1048576x64 .f32 := broadcastInDim S1048576x64 ![] bcast_S_S1048576x64 main_cst_2
  let main_v11 : IVec S1048576x64 1 := cmpf .olt main_v9 main_v10
  let main_c_3 : IVec S_ 1 := constantI S_ 1 1#1
  let main_v12 : IVec S_ 1 := (fun x v => Host.reduce IntOp.andi x v reducesTo_S1048576x64_S_d0_1 h_S_) main_v11 main_c_3
  let main_v13 : IVec S_ 1 := andi main_v8 main_v12
  let main_v14 : FVec F S10x10 .f32 := Host.absf main_arg5
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_v13 main_v16
-- ==== Kernel.lean ====
abbrev S1048576x64 : Shape := ⟨2, ![1048576, 64]⟩
abbrev S1048576 : Shape := ⟨1, ![1048576]⟩
abbrev S10x10 : Shape := ⟨2, ![10, 10]⟩
abbrev S_ : Shape := ⟨0, ![]⟩
abbrev S1048576x1 : Shape := ⟨2, ![1048576, 1]⟩
abbrev S1048576x2 : Shape := ⟨2, ![1048576, 2]⟩
abbrev S2x8x128 : Shape := ⟨3, ![2, 8, 128]⟩
abbrev S8192x64 : Shape := ⟨2, ![8192, 64]⟩
abbrev S8192x1 : Shape := ⟨2, ![8192, 1]⟩
abbrev S1x8x128 : Shape := ⟨3, ![1, 8, 128]⟩
abbrev S8192 : Shape := ⟨1, ![8192]⟩
abbrev S1x8192x1 : Shape := ⟨3, ![1, 8192, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 32
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S1048576, .i32⟩
  | .hbm, ⟨4, _⟩ => ⟨S1048576, .i32⟩
  | .hbm, ⟨5, _⟩ => ⟨S10x10, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x1, .i32⟩
  | .hbm, ⟨22, _⟩ => ⟨S1048576x2, .i32⟩
  | .hbm, ⟨23, _⟩ => ⟨S1048576, .f32⟩
  | .hbm, ⟨24, _⟩ => ⟨S1048576x1, .f32⟩
  | .hbm, ⟨25, _⟩ => ⟨S2x8x128, .f32⟩
  | .hbm, ⟨26, _⟩ => ⟨S2x1x1, .f32⟩
  | .hbm, ⟨27, _⟩ => ⟨S2, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x1, .f32⟩
  | .local _ .vmem, ⟨7, _⟩ => ⟨S8192x1, .f32⟩
  | .local _ .vmem, ⟨8, _⟩ => ⟨S1x8x128, .f32⟩
  | .local _ .vmem, ⟨9, _⟩ => ⟨S1x8x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  shapeCasts_S1048576_S1048576x1 : S1048576.ShapeCasts S1048576x1
  inb_S1x8x128_S1x8x128_0_0_0 : ∀ a, (![0, 0, 0] : Fin 3 → Nat) a + S1x8x128.size a ≤ S1x8x128.size a
  h_S1x8x128 : 0 < S1x8x128.numel
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  gather_S10x10_S1048576x2_S1048576_n_01_n_n_01_1_11_wf : GatherDims.WF S10x10 S1048576x2 S1048576 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S1048576x64.size a
  hwx0_1 : ∀ i : grid0.Coords, EltTy.bits .f32 = 32 ∨ (Rect.block (s := S1048576x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S1048576x64.size a
  hwx0_2 : ∀ i : grid0.Coords, EltTy.bits .f32 = 32 ∨ (Rect.block (s := S1048576x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x1.size a ≤ S1048576x1.size a
  hwx0_3 : ∀ i : grid0.Coords, EltTy.bits .f32 = 32 ∨ (Rect.block (s := S1048576x1) S8192x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def gather_S10x10_S1048576x2_S1048576_n_01_n_n_01_1_11 : GatherDims S10x10 S1048576x2 S1048576 where
  offsetDims := []
  collapsedSliceDims := [0, 1]
  operandBatchingDims := []
  startIndicesBatchingDims := []
  startIndexMap := [0, 1]
  indexVectorDim := 1
  sliceSizes := ![1, 1]
  wf := gather_S10x10_S1048576x2_S1048576_n_01_n_n_01_1_11_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S8192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S10x10 : Shape := ⟨2, ![10, 10]⟩
abbrev S_ : Shape := ⟨0, ![]⟩
abbrev S1048576x1 : Shape := ⟨2, ![1048576, 1]⟩
abbrev S1048576x2 : Shape := ⟨2, ![1048576, 2]⟩

abbrev nBuf : Space → Nat
  | .hbm => 41
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S1048576, .i32⟩
  | .hbm, ⟨4, _⟩ => ⟨S1048576, .i32⟩
  | .hbm, ⟨5, _⟩ => ⟨S10x10, .f32⟩
  | .hbm, ⟨6, _⟩ => ⟨S1048576x64, .f32⟩
  | .hbm, ⟨7, _⟩ => ⟨S1048576x64, .f32⟩
  | .hbm, ⟨8, _⟩ => ⟨S_, .f32⟩
  | .hbm, ⟨9, _⟩ => ⟨S1048576, .f32⟩
  | .hbm, ⟨10, _⟩ => ⟨S1048576x64, .f32⟩
  | .hbm, ⟨11, _⟩ => ⟨S1048576x64, .f32⟩
  | .hbm, ⟨12, _⟩ => ⟨S_, .f32⟩
  | .hbm, ⟨13, _⟩ => ⟨S1048576, .f32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S1048576, .i32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x1, .i32⟩
  | .hbm, ⟨30, _⟩ => ⟨S1048576x2, .i32⟩
  | .hbm, ⟨31, _⟩ => ⟨S1048576, .f32⟩
  | .hbm, ⟨32, _⟩ => ⟨S1048576, .f32⟩
  | .hbm, ⟨33, _⟩ => ⟨S1048576, .f32⟩
  | .hbm, ⟨34, _⟩ => ⟨S_, .f32⟩
  | .hbm, ⟨35, _⟩ => ⟨S1048576, .f32⟩
  | .hbm, ⟨36, _⟩ => ⟨S1048576, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  reducesTo_S1048576_S_d0 : S1048576.ReducesTo [0] S_
  gather_S10x10_S1048576x2_S1048576_n_01_n_n_01_1_11_wf : GatherDims.WF S10x10 S1048576x2 S1048576 [] [0, 1] [] [0, 1] [] 1 ![1, 1]

variable [Facts₀]

def gather_S10x10_S1048576x2_S1048576_n_01_n_n_01_1_11 : GatherDims S10x10 S1048576x2 S1048576 where
  offsetDims := []
  collapsedSliceDims := [0, 1]
  operandBatchingDims := []
  startIndicesBatchingDims := []
  startIndexMap := [0, 1]
  indexVectorDim := 1
  sliceSizes := ![1, 1]
  wf := gather_S10x10_S1048576x2_S1048576_n_01_n_n_01_1_11_wf

class Facts : Prop extends Facts₀ where

variable [Facts]
-- ==== Proof.TilePieces.lean ====
/-
  What one grid point leaves in the output's staging block, as a value.

  The body stores the whole (1, 8, 128) block once per point: the block it found there plus the tile's partial loss,
  every entry the same (the payload `k0_pay2`). At the first point of a group of 64 it first overwrites the block with
  zeros and reads those back, so there the block it adds to is the zero block (`k0_pay1`). Each load reads a whole
  staging buffer, so the payload's operands are the buffers' contents themselves.
-/
import proofs.«103831_j25890062860767_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.TilePieces

open Cert.KernelIdeal Cert.KernelIdeal.Gen

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- A point that is not the first of its group: the block `xo` found there, plus the tile's partial loss. -/
theorem carried (c : Dev nD) (i : grid0.Coords) (a2 : Memref sig .tc .vmem S8192x64 .f32) (h2 : a2.IsWhole)
    (a3 : Memref sig .tc .vmem S8192x64 .f32) (h3 : a3.IsWhole) (a4 : Memref sig .tc .vmem S8192x64 .f32) (h4 : a4.IsWhole)
    (a5 : Memref sig .tc .vmem S8192x1 .f32) (h5 : a5.IsWhole) (a6 : Memref sig .tc .vmem S1x8x128 .f32) (h6 : a6.IsWhole)
    (hc : ¬cond0_0 i) (x0 x1 x2 : Vec F S8192x64 .f32) (x3 : Vec F S8192x1 .f32) (xo : Vec F S1x8x128 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero zero3]
  simp only [View.readAt_eq_ld, h2.read_unread, h3.read_unread, h4.read_unread, h5.read_unread, h6.read_unread,
    View.ld_unit_zero (S := S8192x64) zero2, View.ld_unit_zero (S := S8192x1) zero2, View.ld_unit_zero (S := S1x8x128) zero3]

/-- The first point of a group: the zero block just stored is what the partial loss is added to. -/
theorem restarted (c : Dev nD) (i : grid0.Coords) (a2 : Memref sig .tc .vmem S8192x64 .f32) (h2 : a2.IsWhole)
    (a3 : Memref sig .tc .vmem S8192x64 .f32) (h3 : a3.IsWhole) (a4 : Memref sig .tc .vmem S8192x64 .f32) (h4 : a4.IsWhole)
    (a5 : Memref sig .tc .vmem S8192x1 .f32) (h5 : a5.IsWhole) (a6 : Memref sig .tc .vmem S1x8x128 .f32) (h6 : a6.IsWhole)
    (hc : cond0_0 i) (x0 x1 x2 : Vec F S8192x64 .f32) (x3 : Vec F S8192x1 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x8x128) zero3, View.readCov_unit_zero (S := S1x8x128) _ zero3]
  simp only [View.readAt_eq_ld, h2.read_unread, h3.read_unread, h4.read_unread, h5.read_unread,
    View.ld_unit_zero (S := S8192x64) zero2, View.ld_unit_zero (S := S8192x1) zero2, View.ld_unit_zero (S := S1x8x128) zero3]

end Cert.KernelIdeal.TilePieces

end
-- ==== Proof.TileValue.lean ====
/-
  One grid point's arithmetic, read at an entry, over the extended reals.

  A tile holds 8192 rows. Row `r`'s loss is
      max ( Σₖ (a r k − p r k)² − Σₖ (a r k − n r k)² + margin r , 0 ),       k over the 64 columns,
  and the point adds the sum of the 8192 row losses to EVERY entry of the (1, 8, 128) block it carries. The kernel
  reaches the sum by casting the row losses to (1, 8192, 1) and reducing both long axes into one element; a sum
  over all indices does not see a cast, and an index of an (8192, 1) array is a row and the column 0.
-/
import proofs.«103831_j25890062860767_1_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.TileValue

open Cert.KernelIdeal Cert.KernelIdeal.Gen

/-- Row `r`'s loss, from the tile's three (8192, 64) blocks and its (8192, 1) margin column. -/
def rowLoss (a p n : FVec Ideal S8192x64 .f32) (mg : FVec Ideal S8192x1 .f32) (r : Fin 8192) : EReal :=
  max ((∑ k : Fin 64, (a (ix2 r k) - p (ix2 r k)) * (a (ix2 r k) - p (ix2 r k)))
        - (∑ k : Fin 64, (a (ix2 r k) - n (ix2 r k)) * (a (ix2 r k) - n (ix2 r k))) + mg (ix2 r 0)) 0

/-- A row's squared distance: the lane sum of the squared differences, kept as a column. -/
theorem sqdist_apply (x y : FVec Ideal S8192x64 .f32) (h : S8192x64.Reduces [1] S8192) (hφ) (hacc)
    (hc : S8192.ShapeCasts S8192x1) (r : Fin 8192) :
    shapeCast S8192x1 (multiReduction .add [1] S8192 (mulf (subf x y) (subf x y)) 0x00000000#32 h hφ hacc) hc (ix2 r 0)
      = ∑ k : Fin 64, (x (ix2 r k) - y (ix2 r k)) * (x (ix2 r k) - y (ix2 r k)) := by
  rw [shapeCast_apply _ hc (ix2 r 0) (ix1 r) (by
    rw [Shape.rowMajor_val_one, Shape.rowMajor_val_two]
    show r.val = r.val * 1 + 0
    omega)]
  rw [Ideal.multiReduction_add_single]
  refine Finset.sum_congr rfl fun k _ => ?_
  have e : h.lift (ix1 r) k = ix2 r k :=
    funext fun a => Fin.ext (by match a with | ⟨0, _⟩ => rfl | ⟨1, _⟩ => rfl)
  rw [e]
  rfl

/-- The tile's total: the column cast to (1, 8192, 1), both long axes reduced, the one element taken out, is the sum
    of the column over its 8192 rows. -/
theorem total_apply (w : FVec Ideal S8192x1 .f32) (hc1 : S8192x1.ShapeCasts S1x8192x1)
    (hred : S1x8192x1.Reduces [1, 2] S1) (hφ) (hacc) (hc2 : S1.ShapeCasts S1x1x1) (hpos) :
    extractAt ![0, 0, 0] (shapeCast S1x1x1 (multiReduction .add [1, 2] S1 (shapeCast S1x8192x1 w hc1) 0x00000000#32 hred hφ hacc) hc2) hpos
      = ∑ r : Fin 8192, w (ix2 r 0) := by
  unfold extractAt
  show multiReduction .add [1, 2] S1 (shapeCast S1x8192x1 w hc1) 0x00000000#32 hred hφ hacc (Shape.reshapeEquiv hc2 _) = _
  rw [Ideal.multiReduction_add_total _ _ hred (fun b => by fin_cases b; rfl)]
  show ∑ i : S1x8192x1.Idx, w (Shape.reshapeEquiv hc1 i) = _
  rw [Equiv.sum_comp (Shape.reshapeEquiv hc1) w, sum_idx2]
  exact Finset.sum_congr rfl fun r _ => Fin.sum_univ_one _

/-- Adding one number to every entry of the carried block. -/
theorem carry_add (acc : FVec Ideal S1x8x128 .f32) (s : Ideal .f32) (hc : S1x8x128.ShapeCasts S1x8x128) (y : S1x8x128.Idx) :
    addf (shapeCast S1x8x128 acc hc) (broadcast S1x8x128 s) y = acc y + s := by
  rw [shapeCast_self]
  rfl

/-- The point's whole arithmetic at an entry: what was carried there, plus the tile's 8192 row losses. -/
theorem pay_apply (a p n : FVec Ideal S8192x64 .f32) (mg : FVec Ideal S8192x1 .f32) (acc : FVec Ideal S1x8x128 .f32)
    (y : S1x8x128.Idx) :
    k0_pay2 (F := Ideal) a p n mg acc y = acc y + ∑ r : Fin 8192, rowLoss a p n mg r := by
  unfold k0_pay2
  refine (carry_add acc _ _ y).trans (congrArg (acc y + ·) ?_)
  refine (total_apply _ _ _ _ _ _ _).trans (Finset.sum_congr rfl fun r _ => ?_)
  unfold rowLoss
  exact congrArg₂ max
    (congrArg₂ (· + ·)
      (congrArg₂ (· - ·) (sqdist_apply a p _ _ _ _ r) (sqdist_apply a n _ _ _ _ r))
      (congrFun (shapeCast_self mg _) (ix2 r 0)))
    Ideal.ofBits_zero_f32

/-- The zero block the first point of a group starts from. -/
theorem zero_apply (y : S1x8x128.Idx) : k0_pay1 (F := Ideal) y = 0 := Ideal.ofBits_zero_f32

end Cert.KernelIdeal.TileValue

end
-- ==== Proof.SumByTiles.lean ====
/-
  Regrouping a finite sum, in any additive commutative monoid (the extended reals are one: no finiteness is asked).

  A sum over `a * b` consecutive naturals is the sum over `a` consecutive tiles of the sum over each tile's `b` terms.
  A running total that is reset at every multiple of 64 holds, after point `n`, the sum over the points
  `n - n % 64, …, n`; so after point 63 it is the first 64 points' sum, after point 127 the next 64 points', and the
  two together are all 128 points' sum.
-/
import Mathlib.Algebra.BigOperators.Intervals
import Mathlib.Algebra.BigOperators.Fin
import Mathlib.Data.Fintype.BigOperators

namespace Cert.SumByTiles

open Finset

variable {M : Type*} [AddCommMonoid M]

/-- `a * b` consecutive terms, tile by tile: tile `t` holds the terms `b * t, …, b * t + (b - 1)`. -/
theorem sum_range_mul (f : ℕ → M) (a b : ℕ) :
    ∑ i ∈ range (a * b), f i = ∑ t ∈ range a, ∑ r ∈ range b, f (b * t + r) := by
  induction a with
  | zero => simp
  | succ a ih => rw [Nat.succ_mul, sum_range_add, ih, sum_range_succ, Nat.mul_comm a b]

/-- The total of `p` over the points since the last multiple of 64, the point `n` included. -/
def sinceReset (p : ℕ → M) (n : ℕ) : M := ∑ s ∈ Ico (n - n % 64) (n + 1), p s

/-- At a multiple of 64 the total restarts: it is that point's own term. -/
theorem sinceReset_reset (p : ℕ → M) (n : ℕ) (h : n % 64 = 0) : sinceReset p n = p n := by
  unfold sinceReset
  rw [h, Nat.sub_zero, Nat.Ico_succ_singleton, sum_singleton]

/-- Anywhere else it is the total up to the point before, plus this point's term. -/
theorem sinceReset_step (p : ℕ → M) (n : ℕ) (h : ¬n % 64 = 0) : sinceReset p n = sinceReset p (n - 1) + p n := by
  unfold sinceReset
  have e1 : n - 1 - (n - 1) % 64 = n - n % 64 := by omega
  have e2 : n - 1 + 1 = n := by omega
  rw [e1, e2]
  exact sum_Ico_succ_top (by omega) p

/-- The two groups of 64 points make up the 128. -/
theorem sinceReset_63_add_127 (p : ℕ → M) : sinceReset p 63 + sinceReset p 127 = ∑ t ∈ range 128, p t := by
  unfold sinceReset
  rw [range_eq_Ico]
  exact sum_Ico_consecutive p (by decide) (by decide)

/-- All together: the two groups' totals of the per-tile sums of `f` over 128 tiles of 8192 are the sum of `f` over
    the first 1048576 naturals, written as a sum over `Fin 1048576`. -/
theorem groups_of_tiles (f : ℕ → M) :
    sinceReset (fun t => ∑ r ∈ range 8192, f (8192 * t + r)) 63
      + sinceReset (fun t => ∑ r ∈ range 8192, f (8192 * t + r)) 127
    = ∑ i : Fin 1048576, f i := by
  rw [sinceReset_63_add_127, ← sum_range_mul f 128 8192, Fin.sum_univ_eq_sum_range]

end Cert.SumByTiles
-- ==== Proof.LossSpec.lean ====
/-
  The function both programs compute, over the extended reals.

  For row `i` of the three (1048576, 64) arrays and the margin vector `mg` (one margin per row),
      rowLoss i = max ( Σₖ (a i k − p i k)² − Σₖ (a i k − n i k)² + mg i , 0 ),          k over the 64 columns,
  and the result is the sum of all 1048576 row losses divided by the float constant both programs divide by (the
  same bit pattern on both sides, so its value never matters).
-/
import Idealize.ShloMosaic.PureOps.Ideal
import Idealize.ShloMosaic.Lib.ValueIdx

noncomputable section

open Idealize.ShloMosaic Idealize.ShloMosaic.ValueIdx

namespace Cert.LossSpec

/-- Row `i`'s loss. -/
def rowLoss (a p n : FVec Ideal ⟨2, ![1048576, 64]⟩ .f32) (mg : FVec Ideal ⟨1, ![1048576]⟩ .f32) (i : Fin 1048576) : EReal :=
  max ((∑ k : Fin 64, (a (ix2 i k) - p (ix2 i k)) * (a (ix2 i k) - p (ix2 i k)))
        - (∑ k : Fin 64, (a (ix2 i k) - n (ix2 i k)) * (a (ix2 i k) - n (ix2 i k))) + mg (ix1 i)) 0

/-- The mean loss, as the rank-0 result both programs return. -/
def meanLoss (a p n : FVec Ideal ⟨2, ![1048576, 64]⟩ .f32) (mg : FVec Ideal ⟨1, ![1048576]⟩ .f32) : FVec Ideal ⟨0, ![]⟩ .f32 :=
  fun _ => Ideal.div (∑ i : Fin 1048576, rowLoss a p n mg i) (Ideal.ofBits .f32 0x49800000#32)

/-- The row losses laid out along the naturals (nothing past the last row), the form a tile-by-tile regrouping reads. -/
def rowsNat (a p n : FVec Ideal ⟨2, ![1048576, 64]⟩ .f32) (mg : FVec Ideal ⟨1, ![1048576]⟩ .f32) (j : ℕ) : EReal :=
  if h : j < 1048576 then rowLoss a p n mg ⟨j, h⟩ else 0

theorem sum_rowsNat (a p n : FVec Ideal ⟨2, ![1048576, 64]⟩ .f32) (mg : FVec Ideal ⟨1, ![1048576]⟩ .f32) :
    ∑ i : Fin 1048576, rowsNat a p n mg i = ∑ i : Fin 1048576, rowLoss a p n mg i :=
  Finset.sum_congr rfl fun i _ => dif_pos i.isLt

/-- A rank-1 index is its one coordinate … -/
def idxEquiv1 {n : Nat} : (⟨1, ![n]⟩ : Shape).Idx ≃ Fin n where
  toFun i := i 0
  invFun := ix1
  left_inv i := (eq_ix1 i).symm
  right_inv _ := rfl

/-- … so a sum over a rank-1 index set is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.LossSpec

end
-- ==== Proof.KernelTotal.lean ====
/-
  The idealized kernel's result, over the extended reals: the mean of the row losses.

  The grid has 128 points: two groups of 64 tiles, a tile being 8192 consecutive rows; point `t` reads rows
  `8192 t, …, 8192 t + 8191` of the three arrays and of the margin column (the host gathered one margin per row before
  the kernel starts). The (1, 8, 128) output block of a group is carried from point to point: reset at the group's first
  point, and after point `t` every entry holds the tile losses summed over the points since that reset. A block is
  written back only after its group's last point, so the (2, 8, 128) result array holds group `g`'s total in every
  entry of plane `g`. The host then takes entry (g, 0, 0) of each plane, adds the two, and divides by the constant.
  Two groups of 64 tiles of 8192 rows are all 1048576 rows, each once.
-/
import proofs.«103831_j25890062860767_1_alg».proof.Proof.Gen.KernelIdeal.Frame
import proofs.«103831_j25890062860767_1_alg».proof.Proof.TilePieces
import proofs.«103831_j25890062860767_1_alg».proof.Proof.TileValue
import proofs.«103831_j25890062860767_1_alg».proof.Proof.SumByTiles
import proofs.«103831_j25890062860767_1_alg».proof.Proof.LossSpec
import Idealize.ShloMosaic.Lib.Pipeline.Value
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.SumByTiles Cert.LossSpec

variable (m : (ℓ : Loc nD τ sig) → Buf (Elt Ideal) ℓ) (ρ : Dev nD → PrngReg)

/-! ## The margin vector the host gathers before the kernel starts -/

/-- One margin per row: the (10, 10) table read at the row's two labels, a negative label counted from the end. -/
def marginVec (x3 x4 : (⟨S1048576, .i32⟩ : BufTy).Contents (Elt Ideal)) (x5 : (⟨S10x10, .f32⟩ : BufTy).Contents (Elt Ideal)) :
    (⟨S1048576, .f32⟩ : BufTy).Contents (Elt Ideal) :=
  Host.gather gather_S10x10_S1048576x2_S1048576_n_01_n_n_01_1_11 x5
    (concatenate S1048576x2 1
      [⟨S1048576x1, broadcastInDim S1048576x1 ![0] Facts₀.bcast_S1048576_S1048576x1_0
          (select (cmpi .slt x3 (broadcastInDim S1048576 ![] Facts₀.bcast_S_S1048576 (constantI S_ 32 0#32)))
            (addi x3 (broadcastInDim S1048576 ![] Facts₀.bcast_S_S1048576 (constantI S_ 32 10#32))) x3)⟩,
       ⟨S1048576x1, broadcastInDim S1048576x1 ![0] Facts₀.bcast_S1048576_S1048576x1_0
          (select (cmpi .slt x4 (broadcastInDim S1048576 ![] Facts₀.bcast_S_S1048576 (constantI S_ 32 0#32)))
            (addi x4 (broadcastInDim S1048576 ![] Facts₀.bcast_S_S1048576 (constantI S_ 32 10#32))) x4)⟩]
      Facts₀.concatenates_S1048576x1_S1048576x1_S1048576x2_d1)

/-- The arrays the program was launched with, and the margin vector of its labels and table. -/
abbrev anchor (c : Dev nD) : FVec Ideal S1048576x64 .f32 := m ((c : Thread nD τ).loc main_arg0)
abbrev positive (c : Dev nD) : FVec Ideal S1048576x64 .f32 := m ((c : Thread nD τ).loc main_arg1)
abbrev negative (c : Dev nD) : FVec Ideal S1048576x64 .f32 := m ((c : Thread nD τ).loc main_arg2)
abbrev margin (c : Dev nD) : FVec Ideal S1048576 .f32 :=
  marginVec (m ((c : Thread nD τ).loc main_arg3)) (m ((c : Thread nD τ).loc main_arg4)) (m ((c : Thread nD τ).loc main_arg5))

set_option maxHeartbeats 2000000 in
/-- The kernel's fourth operand, as the region finds it: the margin vector as a column. -/
theorem marginCol (c : Dev nD) :
    V m c main_v14 = shapeCast S1048576x1 (margin m c) Facts₀.shapeCasts_S1048576_S1048576x1 := by
  show StableHlo.after hostOps0 (fun b => m (c, b)) (Proc.devRef .tc main_v14) = _
  after_results_simp
  rfl

/-! ## A tile's rows, in the whole arrays -/

/-- The printed index maps, decided over the grid: point `t`'s input blocks are block row `t`, its output block is
    plane `t / 64`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val / 64 ∧ win0_4.index t (1 : Fin 3) = 0 ∧ win0_4.index t (2 : Fin 3) = 0 :=
  (by decide +kernel : ∀ t : Fin grid0.N, _)

theorem point_lt (t : Fin cfg0.N) : t.val < 128 := lt_of_lt_of_eq t.isLt (show cfg0.N = 128 from N_0)

/-- Row `r` of point `t`'s tile is row `8192 t + r` of the arrays. -/
def rowOf (t : Fin cfg0.N) (r : Fin 8192) : Fin 1048576 :=
  ⟨8192 * t.val + r.val, by have := point_lt t; have := r.isLt; omega⟩

theorem anchor_blk (c : Dev nD) (t : Fin cfg0.N) (r : Fin 8192) (k : Fin 64) :
    (iblk m c 0 t : Vec Ideal S8192x64 .f32) (ix2 r k) = anchor m c (ix2 (rowOf t r) k) := by
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 8192 + 1 * r.val = 8192 * t.val + r.val; omega
  | ⟨1, _⟩ => show win0_0.index t (1 : Fin 2) * 64 + 1 * k.val = k.val; omega

theorem positive_blk (c : Dev nD) (t : Fin cfg0.N) (r : Fin 8192) (k : Fin 64) :
    (iblk m c 1 t : Vec Ideal S8192x64 .f32) (ix2 r k) = positive m c (ix2 (rowOf t r) k) := by
  unfold iblk
  rw [View.read_apply]
  show V m c main_arg1 _ = _
  rw [V_main_arg1]
  refine congrArg _ (funext fun a => Fin.ext ?_)
  obtain ⟨-, -, e0, e1, -⟩ := idx_facts t
  match a with
  | ⟨0, _⟩ => show win0_1.index t (0 : Fin 2) * 8192 + 1 * r.val = 8192 * t.val + r.val; omega
  | ⟨1, _⟩ => show win0_1.index t (1 : Fin 2) * 64 + 1 * k.val = k.val; omega

theorem negative_blk (c : Dev nD) (t : Fin cfg0.N) (r : Fin 8192) (k : Fin 64) :
    (iblk m c 2 t : Vec Ideal S8192x64 .f32) (ix2 r k) = negative m c (ix2 (rowOf t r) k) := by
  unfold iblk
  rw [View.read_apply]
  show V m c main_arg2 _ = _
  rw [V_main_arg2]
  refine congrArg _ (funext fun a => Fin.ext ?_)
  obtain ⟨-, -, -, -, e0, e1, -⟩ := idx_facts t
  match a with
  | ⟨0, _⟩ => show win0_2.index t (0 : Fin 2) * 8192 + 1 * r.val = 8192 * t.val + r.val; omega
  | ⟨1, _⟩ => show win0_2.index t (1 : Fin 2) * 64 + 1 * k.val = k.val; omega

theorem margin_blk (c : Dev nD) (t : Fin cfg0.N) (r : Fin 8192) :
    (iblk m c 3 t : Vec Ideal S8192x1 .f32) (ix2 r 0) = margin m c (ix1 (rowOf t r)) := by
  unfold iblk
  rw [View.read_apply]
  show V m c main_v14 _ = _
  rw [marginCol]
  obtain ⟨-, -, -, -, -, -, e0, e1, -⟩ := idx_facts t
  refine shapeCast_apply _ _ _ (ix1 (rowOf t r)) ?_
  rw [Shape.rowMajor_val_one, Shape.rowMajor_val_two]
  show 8192 * t.val + r.val = (win0_3.index t (0 : Fin 2) * 8192 + 1 * r.val) * 1 + (win0_3.index t (1 : Fin 2) * 1 + 1 * 0)
  omega

/-- The tile losses along the naturals: tile `t`'s 8192 row losses, summed. -/
def tileLoss (c : Dev nD) : ℕ → EReal := fun t =>
  ∑ r ∈ Finset.range 8192, rowsNat (anchor m c) (positive m c) (negative m c) (margin m c) (8192 * t + r)

/-- What point `t` adds to its block is tile `t`'s loss. -/
theorem tile_rows (c : Dev nD) (t : Fin cfg0.N) :
    ∑ r : Fin 8192, TileValue.rowLoss (iblk m c 0 t) (iblk m c 1 t) (iblk m c 2 t) (iblk m c 3 t) r = tileLoss m c t.val := by
  unfold tileLoss
  rw [← Fin.sum_univ_eq_sum_range (fun r => rowsNat (anchor m c) (positive m c) (negative m c) (margin m c) (8192 * t.val + r)) 8192]
  refine Finset.sum_congr rfl fun r _ => ?_
  have hN := point_lt t
  have hr := r.isLt
  unfold rowsNat
  rw [dif_pos (by omega : 8192 * t.val + r.val < 1048576)]
  unfold TileValue.rowLoss LossSpec.rowLoss
  simp only [anchor_blk, positive_blk, negative_blk, margin_blk]
  rfl

/-! ## The carried block is the running total since the group's reset -/

theorem carried_eq (c : Dev nD) : ∀ (n : ℕ) (h : n < cfg0.N) (y : S1x8x128.Idx),
    outsAt0 m c n h y = sinceReset (tileLoss m c) n := by
  intro n
  induction n using Nat.strong_induction_on with
  | _ n ih =>
    intro h y
    by_cases h0 : n % 64 = 0
    · rw [outsAt0_A m c ⟨n, h⟩ h0, TilePieces.restarted, TileValue.pay_apply, TileValue.zero_apply, zero_add,
        tile_rows m c ⟨n, h⟩, sinceReset_reset _ _ h0]
    · rw [outsAt0_B m c ⟨n, h⟩ h0, TilePieces.carried, TileValue.pay_apply, ih (n - 1) (by omega) _ y,
        tile_rows m c ⟨n, h⟩, sinceReset_step _ _ h0]

/-! ## The result array -/

/-- Plane `g` of the (2, 8, 128) array: group `g`'s total, in every entry. -/
def groupTotals (c : Dev nD) : FVec Ideal S2x8x128 .f32 :=
  fun i => (sinceReset (tileLoss m c) (64 * (i 0).val + 63) : EReal)

/-- A write-back happens after a group's last point, and writes the group's total. -/
theorem flushed_eq (c : Dev nD) (t : Fin cfg0.N) (hf : (cfg0.win 4).flush t = true) :
    (dats m 0 c).flushed 4 t = ((cfg0.win 4).blk t).view.read (Elt Ideal) (groupTotals m c) := by
  have h63 : t.val % 64 = 63 := (flush0_4 t).mp hf
  show (cfg0.win 4).cut (grid0.coords t) ((dats m 0 c).after 4 t) = _
  rw [after0_4]
  funext y
  rw [View.read_apply]
  show outsAt0 m c t.val t.isLt y = groupTotals m c (((cfg0.win 4).blk t).view.emb y)
  rw [carried_eq]
  unfold groupTotals
  refine congrArg (sinceReset (tileLoss m c)) ?_
  obtain ⟨-, -, -, -, -, -, -, -, e0, -⟩ := idx_facts t
  have hy : (y 0).val < 1 := (y 0).isLt
  show t.val = 64 * (win0_4.index t (0 : Fin 3) * 1 + 1 * (y 0).val) + 63
  omega

/-- An index of the array is in point `t`'s block iff each coordinate is in the block's range on its axis. -/
theorem mem_blk (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v15).slice (win0_4.rect t)).set ↔ _
  rw [View.set_slice_whole, Rect.mem_set_unit]
  exact Iff.rfl

/-- So the array ends holding the two groups' totals: plane `g` is covered by the write-back after point `64 g + 63`. -/
theorem final (c : Dev nD) : (dats m 0 c).arrAt 4 cfg0.N = groupTotals m c :=
  (dats m 0 c).arrAt_eq_of_cover 4 (groupTotals m c) (flushed_eq m c) fun i => by
    have h0 : (i 0).val < 2 := (i 0).isLt
    have h1 : (i 1).val < 8 := (i 1).isLt
    have h2 : (i 2).val < 128 := (i 2).isLt
    let t : Fin cfg0.N := ⟨64 * (i 0).val + 63, by rw [show cfg0.N = 128 from N_0]; omega⟩
    refine ⟨t, (flush0_4 t).mpr (by show (64 * (i 0).val + 63) % 64 = 63; omega), ?_⟩
    rw [mem_blk]
    obtain ⟨-, -, -, -, -, -, -, -, e0, e1, e2⟩ := idx_facts t
    have ht : t.val = 64 * (i 0).val + 63 := rfl
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 8 ≤ (i 1).val ∧ (i 1).val < win0_4.index t (1 : Fin 3) * 8 + 8; omega
    | ⟨2, _⟩ => show win0_4.index t (2 : Fin 3) * 128 ≤ (i 2).val ∧ (i 2).val < win0_4.index t (2 : Fin 3) * 128 + 128; omega

/-! ## The host's last lines: entry (g, 0, 0) of each plane, the two added, the quotient -/

/-- Entry (g, 0, 0) of each of the two planes, added from zero: the two entries' sum … -/
theorem two_planes (G : FVec Ideal S2x8x128 .f32) (j : S_.Idx) :
    Host.reduceAdd (F := Ideal) (shapeCast S2 (extractStridedSlice S2x1x1 ![0, 0, 0] G Facts₀.slices_S2x8x128_S2x1x1_0_0_0) Facts₀.shapeCasts_S2x1x1_S2)
        (constant S_ .f32 0x00000000#32) Facts₀.reducesTo_S2_S_d0 Facts₀.h_S_ j
      = G (ix3 0 0 0) + G (ix3 1 0 0) := by
  simp only [Host.reduceAdd, Ideal.hostReduceAdd_def]
  rw [Ideal.hostReduceAdd_total Facts₀.reducesTo_S2_S_d0 (fun b => b.elim0), sum_idx1, Fin.sum_univ_two]
  have e : ∀ k : Fin 2,
      shapeCast S2 (extractStridedSlice S2x1x1 ![0, 0, 0] G Facts₀.slices_S2x8x128_S2x1x1_0_0_0) Facts₀.shapeCasts_S2x1x1_S2 (ix1 k)
        = G (ix3 k 0 0) := fun k => by
    rw [shapeCast_apply _ _ (ix1 k) (ix3 k 0 0) (by
      rw [Shape.rowMajor_val_three, Shape.rowMajor_val_one]
      show (k.val * 1 + 0) * 1 + 0 = k.val
      omega)]
    unfold extractStridedSlice
    refine congrArg G (funext fun a => Fin.ext ?_)
    match a with
    | ⟨0, _⟩ => show 0 + k.val = k.val; omega
    | ⟨1, _⟩ => rfl
    | ⟨2, _⟩ => rfl
  rw [e 0, e 1]
  show Ideal.ofBits .f32 0x00000000#32 + _ = _
  rw [Ideal.ofBits_zero_f32, zero_add]

/-- … and the quotient by the constant. -/
theorem tail_apply (G : FVec Ideal S2x8x128 .f32) (j : S_.Idx) :
    Host.divf (Host.reduceAdd (F := Ideal) (shapeCast S2 (extractStridedSlice S2x1x1 ![0, 0, 0] G Facts₀.slices_S2x8x128_S2x1x1_0_0_0) Facts₀.shapeCasts_S2x1x1_S2)
        (constant S_ .f32 0x00000000#32) Facts₀.reducesTo_S2_S_d0 Facts₀.h_S_) (constant (F := Ideal) S_ .f32 0x49800000#32) j
      = Ideal.div (G (ix3 0 0 0) + G (ix3 1 0 0)) (Ideal.ofBits .f32 0x49800000#32) :=
  congrArg (fun s => Ideal.div s (Ideal.ofBits .f32 0x49800000#32)) (two_planes G j)

/-- What the host's last lines leave in the result buffer: the mean of the row losses. -/
theorem result_eq (c : Dev nD) :
    Pipeline.afterTail₀ cfgs (dats m) 0 (V0 m) [hostOps1] c main_v19
      = meanLoss (anchor m c) (positive m c) (negative m c) (margin m c) := by
  unfold Pipeline.afterTail₀
  show StableHlo.after hostOps1 _ (Proc.devRef .tc main_v19) = _
  after_results
  rw [(Pipeline.withArrays_arr spec0 launch0.win.arr_inj c _ _ 4).trans (final m c)]
  funext j
  refine (tail_apply (groupTotals m c) j).trans ?_
  unfold meanLoss groupTotals
  refine congrArg (fun s => Ideal.div s (Ideal.ofBits .f32 0x49800000#32)) ?_
  rw [← sum_rowsNat]
  exact groups_of_tiles _

/-! ## The run, read -/

/-- Every weakly fair execution of the idealized kernel ends with the mean of the row losses in its result buffer and
    its six arguments as they were. -/
theorem run : θ_run defs (onTc (τ := τ) (main (F := Ideal))) ⟨m, fun _ => 0, ρ⟩ fun r => ∀ c : Dev nD,
      r.2.mem ((c : Thread nD τ).loc main_v19) = meanLoss (anchor m c) (positive m c) (negative m c) (margin m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v19 (Pipeline.mem_restRefs_of main_v19 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Total

end
-- ==== Proof.ReferenceMean.lean ====
/-
  The idealized reference's result, over the extended reals: the same mean of the row losses.

  The reference works on whole arrays: the two squared distances are sums over the 64 columns (each begun from a zero,
  which adds nothing), the margin is gathered per row, the loss is the larger of their combination and zero, and the
  mean is the sum over all rows (again from a zero) divided by the constant. The gathered margins are left as they
  are: the kernel's host lines gather them the same way.
-/
import proofs.«103831_j25890062860767_1_alg».proof.Proof.Gen.ReferenceIdeal.Read
import proofs.«103831_j25890062860767_1_alg».proof.Proof.LossSpec
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.ReferenceIdeal.Mean

open Cert.ReferenceIdeal Cert.ReferenceIdeal.Read Cert.LossSpec

/-- Row `i` of the reference's last elementwise stage is that row's loss. -/
theorem row_apply (x0 x1 x2 : (⟨S1048576x64, .f32⟩ : BufTy).Contents (Elt Ideal))
    (x3 x4 : (⟨S1048576, .i32⟩ : BufTy).Contents (Elt Ideal)) (x5 : (⟨S10x10, .f32⟩ : BufTy).Contents (Elt Ideal)) (i : Fin 1048576) :
    val_main_v22 (F := Ideal) x0 x1 x2 x3 x4 x5 (ix1 i) = rowLoss x0 x1 x2 (val_main_v19 (F := Ideal) x3 x4 x5) i := by
  have e2 : ∀ k, idx_main_v2 (ix1 i) k = ix2 i k := fun k =>
    funext fun a => Fin.ext (by match a with | ⟨0, _⟩ => rfl | ⟨1, _⟩ => rfl)
  have e5 : ∀ k, idx_main_v5 (ix1 i) k = ix2 i k := fun k =>
    funext fun a => Fin.ext (by match a with | ⟨0, _⟩ => rfl | ⟨1, _⟩ => rfl)
  rw [val_main_v22_apply, val_main_v21_apply, val_main_v20_apply, val_main_v2_apply, val_main_v5_apply,
    val_main_call0_v0_apply]
  simp only [e2, e5, val_main_v1_apply, val_main_v0_apply, val_main_v4_apply, val_main_v3_apply, val_main_cst_apply,
    val_main_cst_0_apply, val_main_call0_cst_apply, Ideal.maximumf_def, Ideal.addf_def, Ideal.subf_def, Ideal.mulf_def,
    Ideal.ofBits_def, Ideal.ofBits_zero_f32, zero_add]
  rfl

/-- The reference's result is the mean loss. -/
theorem mean_eq (x0 x1 x2 : (⟨S1048576x64, .f32⟩ : BufTy).Contents (Elt Ideal))
    (x3 x4 : (⟨S1048576, .i32⟩ : BufTy).Contents (Elt Ideal)) (x5 : (⟨S10x10, .f32⟩ : BufTy).Contents (Elt Ideal)) :
    val_main_v24 (F := Ideal) x0 x1 x2 x3 x4 x5 = meanLoss x0 x1 x2 (val_main_v19 (F := Ideal) x3 x4 x5) := by
  funext j
  rw [val_main_v24_apply, val_main_v23_apply, val_main_cst_5_apply, sum_idx1]
  simp only [row_apply, val_main_cst_4_apply, Ideal.hostDivf_def, Ideal.ofBits_def, Ideal.ofBits_zero_f32, zero_add]
  rfl

end Cert.ReferenceIdeal.Mean

end
-- ==== Proof.lean ====
/-
  A triplet loss with per-pair margins: for anchor, positive and negative arrays of 1048576 rows by 64 columns, integer
  labels per row, and a (10, 10) margin table,

      loss = ( Σ over rows i of  max( Σₖ (a i k − p i k)² − Σₖ (a i k − n i k)² + margin(label_a i, label_n i), 0 ) ) / 2²⁰.

  The reference computes exactly this on whole arrays. The kernel lets the host gather the margins (by the same lines
  as the reference), then streams the rows through a 2 × 64 grid of tiles of 8192 rows: each point adds its tile's 8192
  row losses into a block that is reset at the first of a group's 64 points and written back after the last, and the
  host adds the two groups' totals and divides by the same constant. Over the extended reals addition is associative
  and commutative and zero adds nothing, so the kernel's grouping of the sum (by group, by tile, by row) is the
  reference's single sum: `algebraic`. No law used needs a finite input, so the precondition is never opened.

  The frames of the two kernel programs are the generated ones; the reference's frame is its generated run with the
  result dropped; the idealization rewrote nothing, so `preserves` is `True`.
-/
import proofs.«103831_j25890062860767_1_alg».proof.Defs
import proofs.«103831_j25890062860767_1_alg».proof.Proof.Gen.Kernel.Frame
import proofs.«103831_j25890062860767_1_alg».proof.Proof.Gen.KernelIdeal.Frame
import proofs.«103831_j25890062860767_1_alg».proof.Proof.Gen.ReferenceIdeal.Run
import proofs.«103831_j25890062860767_1_alg».proof.Proof.Gen.ReferenceIdeal.Read
import proofs.«103831_j25890062860767_1_alg».proof.Proof.Gen.Pre_finite_inputs
import proofs.«103831_j25890062860767_1_alg».proof.Proof.KernelTotal
import proofs.«103831_j25890062860767_1_alg».proof.Proof.ReferenceMean

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the mean of the row losses of the arguments they were launched with; the
    arguments agree, and the two host programs gather the same margins from them. -/
theorem algebraic : Cert.algebraic_KernelIdeal_ReferenceIdeal := by
  intro m ρ m' ρ' _ hagree
  refine ⟨_, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Mean.mean_eq,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
